-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S1 : Shape := ⟨1, ![1]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S4x2048x2048 .f32) (main_arg1 : IVec S2048x2048 32) (main_arg2 : FVec F S2048 .f32) (main_arg3 : FVec F S2048 .f32) (main_arg4 : FVec F S1 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048 .f32 := Host.absf main_arg2
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S4x2048x2048 : Shape := ⟨3, ![4, 2048, 2048]⟩
abbrev S2048x2048 : Shape := ⟨2, ![2048, 2048]⟩
abbrev S2048 : Shape := ⟨1, ![2048]⟩
abbrev S1 : Shape := ⟨1, ![1]⟩
abbrev S8192x2048 : Shape := ⟨2, ![8192, 2048]⟩
abbrev S1x2048 : Shape := ⟨2, ![1, 2048]⟩
abbrev S512x2048 : Shape := ⟨2, ![512, 2048]⟩
abbrev S1x512 : Shape := ⟨2, ![1, 512]⟩
abbrev S512x512 : Shape := ⟨2, ![512, 512]⟩

abbrev nBuf : Space → Nat
  | .hbm => 10
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .i32⟩
  | .hbm, ⟨2, _⟩ => ⟨S2048, .f32⟩
  | .hbm, ⟨3, _⟩ => ⟨S2048, .f32⟩
  | .hbm, ⟨4, _⟩ => ⟨S1, .f32⟩
  | .hbm, ⟨5, _⟩ => ⟨S8192x2048, .f32⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .i32⟩
  | .local _ .vmem, ⟨3, _⟩ => ⟨S512x2048, .i32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1, .f32⟩
  | .local _ .vmem, ⟨9, _⟩ => ⟨S512x512, .f32⟩
  | .local _ .vmem, ⟨10, _⟩ => ⟨S512x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x2048_S8192x2048 : S4x2048x2048.ShapeCasts S8192x2048
  shapeCasts_S2048_S1x2048 : S2048.ShapeCasts S1x2048
  inb_S1_S1_0 : ∀ a, (![0] : Fin 1 → Nat) a + S1.size a ≤ S1.size a
  h_S1 : 0 < S1.numel
  inpos_S1_p0 : ∀ a, (![0] : Fin 1 → Nat) a < S1.size a
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S8192x2048_S4x2048x2048 : S8192x2048.ShapeCasts S4x2048x2048
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .i32 = 32 ∨ (Rect.block (s := S2048x2048) S512x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x2048.size a
  hwx0_3 : ∀ i : grid0.Coords, EltTy.bits .f32 = 32 ∨ (Rect.block (s := S1x2048) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x2048.size a
  hwx0_5 : ∀ i : grid0.Coords, EltTy.bits .f32 = 32 ∨ (Rect.block (s := S8192x2048) S512x512.size (cc0_transform_5 i) (hinb0_5 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S1 : Shape := ⟨1, ![1]⟩
abbrev S1x1x1 : Shape := ⟨3, ![1, 1, 1]⟩
abbrev S_ : Shape := ⟨0, ![]⟩
abbrev S2048x1 : Shape := ⟨2, ![2048, 1]⟩
abbrev S1x1x2048 : Shape := ⟨3, ![1, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .i32⟩
  | .hbm, ⟨2, _⟩ => ⟨S2048, .f32⟩
  | .hbm, ⟨3, _⟩ => ⟨S2048, .f32⟩
  | .hbm, ⟨4, _⟩ => ⟨S1, .f32⟩
  | .hbm, ⟨5, _⟩ => ⟨S1x1x1, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048x2048, .f32⟩
  | .hbm, ⟨16, _⟩ => ⟨S4x2048x2048, .f32⟩
  | .hbm, ⟨17, _⟩ => ⟨S1x1x1, .f32⟩
  | .hbm, ⟨18, _⟩ => ⟨S4x2048x2048, .f32⟩
  | .hbm, ⟨19, _⟩ => ⟨S4x2048x2048, .f32⟩
  | .hbm, ⟨20, _⟩ => ⟨S2048x2048, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S4x2048x2048, .f32⟩
  | .hbm, ⟨25, _⟩ => ⟨S1x1x2048, .f32⟩
  | .hbm, ⟨26, _⟩ => ⟨S4x2048x2048, .f32⟩
  | .hbm, ⟨27, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_cst_0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  bcast_S1_S1x1x1_2 : S1.BroadcastsInDim S1x1x1 (![2] : Fin 1 → Fin S1x1x1.rank)
  bcast_S1x1x1_S4x2048x2048_0_1_2 : S1x1x1.BroadcastsInDim S4x2048x2048 (![0, 1, 2] : Fin 3 → Fin S4x2048x2048.rank)
  bcast_S_S4x2048x2048 : S_.BroadcastsInDim S4x2048x2048 (![] : Fin 0 → Fin S4x2048x2048.rank)
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  dot_S4x2048x2048_S2048x2048_S4x2048x2048_2_1_01_0_n_n_wf : DotDims.WF S4x2048x2048 S2048x2048 S4x2048x2048 [2] [1] [0, 1] [0] [] []

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf

class Facts : Prop extends Facts₀ where

variable [Facts]
-- ==== Proof.Spec.lean ====
/- The mathematics both programs compute. An activation x is quantised to an integer level in [-128, 127]
   (divide by the activation scale, round to nearest even, clamp); the levels of a row are multiplied into the
   integer weights of an output channel; and the product is brought back to real units by the channel's weight
   scale and the activation scale, plus a bias. The kernel rescales once, after the integer product; the
   reference rescales every factor before the product. Over finite scales these are one number, because every
   quantised level is finite whatever the quotient was. -/
import Idealize.ShloMosaic.PureOps.Ideal
import Idealize.ShloMosaic.PureOps.Ideal.Laws
import Idealize.ShloMosaic.Lib.ValueIdx

noncomputable section

open scoped BigOperators

namespace Cert.W8A8

open Idealize.ShloMosaic Idealize.ShloMosaic.ValueIdx

abbrev Sx : Shape := ⟨3, ![4, 2048, 2048]⟩
abbrev Sw : Shape := ⟨2, ![2048, 2048]⟩
abbrev Sv : Shape := ⟨1, ![2048]⟩
abbrev Ss : Shape := ⟨1, ![1]⟩

/-- The upper clamp bound is the real 127. -/
theorem hi_val : Ideal.ofBits .f32 0x42FE0000#32 = ((127 : ℝ) : EReal) := by
  simp [Ideal.ofBits, Ideal.ieee, -EReal.coe_mul]; norm_num

/-- The lower clamp bound is the real -128. -/
theorem lo_val : Ideal.ofBits .f32 0xC3000000#32 = ((-128 : ℝ) : EReal) := by
  simp [Ideal.ofBits, Ideal.ieee, -EReal.coe_mul]; norm_num

/-- The quantiser: the quotient by the scale, rounded to nearest even, clamped into [-128, 127]. -/
def quant (x s : EReal) : EReal :=
  min (Ideal.ofBits .f32 0x42FE0000#32)
    (max (Ideal.ofBits .f32 0xC3000000#32) (Ideal.liftRound Ideal.roundHalfEven (Ideal.div x s)))

/-- A quantised level is a real number, whatever the quotient was (an infinity is clamped too). -/
theorem quant_real (x s : EReal) : ∃ r : ℝ, quant x s = (r : EReal) := by
  unfold quant
  rw [hi_val, lo_val]
  generalize Ideal.liftRound Ideal.roundHalfEven (Ideal.div x s) = y
  have hlt : min ((127 : ℝ) : EReal) (max ((-128 : ℝ) : EReal) y) ≠ ⊤ :=
    ne_top_of_le_ne_top (EReal.coe_ne_top _) (min_le_left _ _)
  have hge : ((-128 : ℝ) : EReal) ≤ min ((127 : ℝ) : EReal) (max ((-128 : ℝ) : EReal) y) :=
    le_min (by exact_mod_cast (by norm_num : (-128 : ℝ) ≤ 127)) (le_max_left _ _)
  have hgt : min ((127 : ℝ) : EReal) (max ((-128 : ℝ) : EReal) y) ≠ ⊥ :=
    ne_bot_of_le_ne_bot (EReal.coe_ne_bot _) hge
  exact ⟨_, (EReal.coe_toReal hlt hgt).symm⟩

/-- An integer weight word, read signed, as a real. -/
def wint (b : BitVec 32) : EReal := ((b.toInt : ℝ) : EReal)

/-- A finite sum of reals, coerced, is the sum of the coercions. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Rescaling every factor before the product, or the product once afterwards: the same number when the levels,
    the weights and both scales are finite (the scales leave the sum by distributivity over the reals). -/
theorem rescale_law {ι : Type} [Fintype ι] (q wt : ι → EReal) (s c : EReal)
    (hq : ∀ k, ∃ r : ℝ, q k = (r : EReal)) (hw : ∀ k, ∃ r : ℝ, wt k = (r : EReal))
    (hs : ∃ r : ℝ, s = (r : EReal)) (hc : ∃ r : ℝ, c = (r : EReal)) :
    ∑ k, (q k * s) * (wt k * c) = (∑ k, q k * wt k) * (c * s) := by
  choose qr hqr using hq
  choose wr hwr using hw
  obtain ⟨sr, rfl⟩ := hs
  obtain ⟨cr, rfl⟩ := hc
  simp only [hqr, hwr, ← EReal.coe_mul, ← coe_sum]
  rw [EReal.coe_eq_coe_iff, Finset.sum_mul]
  exact Finset.sum_congr rfl fun k _ => by ring

/-- One output element as the kernel arranges it: the integer product of a row's levels with a channel's
    weights, rescaled once by (weight scale x activation scale), plus the channel's bias. -/
def elemK (x : Sx.Idx → EReal) (w : Sw.Idx → BitVec 32) (ws b : Sv.Idx → EReal) (xs : Ss.Idx → EReal)
    (p : Fin 4) (r o : Fin 2048) : EReal :=
  (∑ k : Fin 2048, quant (x (ix3 p r k)) (xs (ix1 (0 : Fin 1))) * wint (w (ix2 o k)))
    * (ws (ix1 o) * xs (ix1 (0 : Fin 1))) + b (ix1 o)

/-- The same element as the reference arranges it: every level dequantised, every weight dequantised, then
    the product. -/
def elemR (x : Sx.Idx → EReal) (w : Sw.Idx → BitVec 32) (ws b : Sv.Idx → EReal) (xs : Ss.Idx → EReal)
    (p : Fin 4) (r o : Fin 2048) : EReal :=
  (∑ k : Fin 2048, (quant (x (ix3 p r k)) (xs (ix1 (0 : Fin 1))) * xs (ix1 (0 : Fin 1)))
      * (wint (w (ix2 o k)) * ws (ix1 o))) + b (ix1 o)

/-- The two arrangements agree when the channel's weight scale and the activation scale are finite. -/
theorem elemR_eq_elemK (x : Sx.Idx → EReal) (w : Sw.Idx → BitVec 32) (ws b : Sv.Idx → EReal) (xs : Ss.Idx → EReal)
    (p : Fin 4) (r o : Fin 2048)
    (hws : ∃ t : ℝ, ws (ix1 o) = (t : EReal)) (hxs : ∃ t : ℝ, xs (ix1 (0 : Fin 1)) = (t : EReal)) :
    elemR x w ws b xs p r o = elemK x w ws b xs p r o := by
  unfold elemR elemK
  rw [rescale_law (fun k => quant (x (ix3 p r k)) (xs (ix1 (0 : Fin 1)))) (fun k => wint (w (ix2 o k))) _ _
    (fun k => quant_real _ _) (fun k => ⟨_, rfl⟩) hxs hws]

/-- The whole result array, element by element. -/
def out (x : Sx.Idx → EReal) (w : Sw.Idx → BitVec 32) (ws b : Sv.Idx → EReal) (xs : Ss.Idx → EReal) :
    Sx.Idx → EReal :=
  fun i => elemK x w ws b xs ⟨(i 0).val, (i 0).isLt⟩ ⟨(i 1).val, (i 1).isLt⟩ ⟨(i 2).val, (i 2).isLt⟩

end Cert.W8A8

end
-- ==== Proof.LibDotReadRhsT.lean ====
/- A matrix product's contraction sum re-indexed by the contracted coordinate, for the product of an m x k matrix by
   the transpose of an n x k matrix: both operands are contracted along their second axis. -/
import Idealize.ShloMosaic.Lib.ValueIdx
import Idealize.ShloMosaic.PureOps.Ideal.Laws

noncomputable section

open scoped BigOperators

namespace Cert.DotReadRhsT

open Idealize.ShloMosaic Idealize.ShloMosaic.ValueIdx

/-- The right operand transposed: the contraction at (a, b) runs over A (a, c) * B (b, c). -/
theorem sum_contr_rhsT {m k n : Nat}
    (w : DotDims.WF ⟨2, ![m, k]⟩ ⟨2, ![n, k]⟩ ⟨2, ![m, n]⟩ [1] [1] [0] [0] [] [])
    (A : (⟨2, ![m, k]⟩ : Shape).Idx → EReal) (B : (⟨2, ![n, k]⟩ : Shape).Idx → EReal) (a : Fin m) (b : Fin n) :
    ∑ q : (⟨[1], [1], [0], [0], [], [], w⟩ : DotDims ⟨2, ![m, k]⟩ ⟨2, ![n, k]⟩ ⟨2, ![m, n]⟩).contr.Idx,
        A ((⟨[1], [1], [0], [0], [], [], w⟩ : DotDims ⟨2, ![m, k]⟩ ⟨2, ![n, k]⟩ ⟨2, ![m, n]⟩).lhsIdx (ix2 a b) q)
          * B ((⟨[1], [1], [0], [0], [], [], w⟩ : DotDims ⟨2, ![m, k]⟩ ⟨2, ![n, k]⟩ ⟨2, ![m, n]⟩).rhsIdx (ix2 a b) q)
      = ∑ c : Fin k, A (ix2 a c) * B (ix2 b c) := by
  rw [← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.DotReadRhsT

end
-- ==== Proof.KernelBody.lean ====
/- The kernel body's one stored value, read at an element of the 512 x 512 output block. -/
import proofs.«105305_j15753940041870_1_alg».proof.Proof.Gen.KernelIdeal.Skeleton
import proofs.«105305_j15753940041870_1_alg».proof.Proof.LibDotReadRhsT
import proofs.«105305_j15753940041870_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.W8A8.KernelBody

open Idealize.ShloMosaic Idealize.ShloMosaic.ValueIdx Cert.KernelIdeal Cert.KernelIdeal.Gen Cert.W8A8

/-- The scalar read out of the one-element scale vector is its element 0. -/
theorem extract_scale (v0 : Vec Ideal S1 .f32) (h : ∀ a, (![0] : Fin S1.rank → Nat) a < S1.size a) :
    extractAt ![0] v0 h = v0 (ix1 (0 : Fin 1)) :=
  congrArg v0 (funext fun a => by match a with | ⟨0, _⟩ => rfl)

/-- The matrix unit's product into a zero accumulator, both operands contracted along their second axis:
    entry (p, q) is the sum over k of A (p, k) B (q, k). -/
theorem matmul_at (A B : FVec Ideal S512x2048 .bf16) (p q : Fin 512) :
    matmul dot_S512x2048_S512x2048_S512x512_1_1_0_0_n_n none A B (constant S512x512 .f32 0x00000000#32) (ix2 p q)
      = ∑ k : Fin 2048, A (ix2 p k) * B (ix2 q k) := by
  show FloatOps.matmul dot_S512x2048_S512x2048_S512x512_1_1_0_0_n_n none A B (constant S512x512 .f32 0x00000000#32) (ix2 p q) = _
  refine (Ideal.matmul_constant_zero_apply dot_S512x2048_S512x2048_S512x512_1_1_0_0_n_n none A B (ix2 p q)).trans ?_
  exact Cert.DotReadRhsT.sum_contr_rhsT _ A B p q

/-- Element (p, q) of the stored block: the levels of row p of the activation block against the weights of row q
    of the weight block, rescaled by the q-th weight scale times the activation scale, plus the q-th bias. The
    narrowing of both matrix operands to sixteen bits is the identity on the extended reals, and the quantiser's
    pointwise steps (quotient, rounding, the two clamps) are the specification's by definition. -/
theorem pay_apply (v0 : Vec Ideal S1 .f32) (v2 : Vec Ideal S512x2048 .f32) (v12 : Vec Ideal S512x2048 .i32)
    (v16 v18 : Vec Ideal S1x512 .f32) (p q : Fin 512) :
    k0_pay1 (F := Ideal) v0 v2 v12 v16 v18 (ix2 p q)
      = (∑ k : Fin 2048, quant (v2 (ix2 p k)) (v0 (ix1 (0 : Fin 1))) * wint (v12 (ix2 q k)))
          * (v16 (ix2 (0 : Fin 1) q) * v0 (ix1 (0 : Fin 1))) + v18 (ix2 (0 : Fin 1) q) := by
  unfold k0_pay1
  rw [shapeCast_self, shapeCast_self, shapeCast_self, extract_scale]
  show matmul _ none _ _ _ (ix2 p q) * broadcastTo S512x512 _ _ (ix2 p q) + broadcastTo S512x512 _ _ (ix2 p q) = _
  rw [broadcastTo_1b_ab_apply, broadcastTo_1b_ab_apply, matmul_at]
  rfl

end Cert.W8A8.KernelBody

end
-- ==== Proof.KernelBlocks.lean ====
/- From the blocks the grid points write back to the whole [8192, 2048] result array. -/
import proofs.«105305_j15753940041870_1_alg».proof.Proof.Gen.KernelIdeal.Frame
import proofs.«105305_j15753940041870_1_alg».proof.Proof.KernelBody
import Idealize.ShloMosaic.Lib.Pipeline.Value

set_option maxRecDepth 16384

noncomputable section

open scoped BigOperators

namespace Cert.W8A8.KernelBlocks

open Idealize.ShloMosaic Idealize.ShloMosaic.TcCoe Idealize.ShloMosaic.ValueIdx Idealize.SL.Sem
open Cert.KernelIdeal Cert.KernelIdeal.Gen Cert.W8A8 Cert.W8A8.KernelBody
open Idealize.ShloMosaic.Pipeline (Dat)

variable (m : (ℓ : Loc nD τ sig) → Buf (Elt Ideal) ℓ)

/-- Entry (r, o) of the result over the call's five operand arrays: row r's levels against channel o's weights,
    rescaled by channel o's weight scale times the activation scale, plus channel o's bias. -/
def elem2 (X : S8192x2048.Idx → EReal) (W : S2048x2048.Idx → BitVec 32) (WS B : S1x2048.Idx → EReal) (XS : S1.Idx → EReal)
    (r : Fin 8192) (o : Fin 2048) : EReal :=
  (∑ k : Fin 2048, quant (X (ix2 r k)) (XS (ix1 (0 : Fin 1))) * wint (W (ix2 o k)))
    * (WS (ix2 (0 : Fin 1) o) * XS (ix1 (0 : Fin 1))) + B (ix2 (0 : Fin 1) o)

/-- The result as one function of the five operand arrays of the call, over the flattened [8192, 2048] rows. -/
def G2 (X : S8192x2048.Idx → EReal) (W : S2048x2048.Idx → BitVec 32) (WS B : S1x2048.Idx → EReal) (XS : S1.Idx → EReal) :
    S8192x2048.Idx → EReal :=
  fun j => elem2 X W WS B XS ⟨(j 0).val, (j 0).isLt⟩ ⟨(j 1).val, (j 1).isLt⟩

/-- The call's operand arrays as the region finds them, each at its literal type. -/
abbrev Xa (c : Dev nD) : S8192x2048.Idx → EReal := V m c main_v0
abbrev Wa (c : Dev nD) : S2048x2048.Idx → BitVec 32 := V m c main_arg1
abbrev Sa (c : Dev nD) : S1x2048.Idx → EReal := V m c main_v1
abbrev Ba (c : Dev nD) : S1x2048.Idx → EReal := V m c main_v2
abbrev Aa (c : Dev nD) : S1.Idx → EReal := V m c main_arg4

theorem hz : (![0, 0] : Fin 2 → Nat) = fun _ => 0 := funext fun a => by fin_cases a <;> rfl
theorem hz1 : (![0] : Fin 1 → Nat) = fun _ => 0 := funext fun a => by fin_cases a <;> rfl

/-- How the operands' blocks move with the output's block (I, J) over the 16 x 4 grid: the activation block is row
    block I, the weight block is row block J, the scale and bias blocks are column block J, the activation scale
    never moves; all decided over the grid. -/
theorem idx_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = 0 ∧ win0_2.index t (1 : Fin 2) = win0_5.index t (1 : Fin 2)
    ∧ win0_3.index t (0 : Fin 2) = 0 ∧ win0_3.index t (1 : Fin 2) = win0_5.index t (1 : Fin 2)
    ∧ win0_4.index t (0 : Fin 1) = 0
    ∧ win0_5.index t (0 : Fin 2) ≤ 15 ∧ win0_5.index t (1 : Fin 2) ≤ 3 :=
  (by decide +kernel : ∀ t : Fin grid0.N, _)

/-- Every block (I, J) of the output is some grid point's. -/
theorem idx_onto : ∀ (q0 : Fin 16) (q1 : Fin 4), ∃ t : Fin cfg0.N, win0_5.index t = ![q0.val, q1.val] :=
  (by decide +kernel : ∀ (q0 : Fin 16) (q1 : Fin 4), ∃ t : Fin grid0.N, win0_5.index t = ![q0.val, q1.val])

/-- Row p, column k of the activation block at point t is row I * 512 + p of the flattened activations. -/
theorem xblk_apply (c : Dev nD) (t : Fin cfg0.N) (p : Fin 512) (k : Fin 2048) (r : Fin 8192)
    (hr : r.val = win0_5.index t (0 : Fin 2) * 512 + 1 * p.val) :
    (iblk m c 0 t : Vec Ideal S512x2048 .f32) (ix2 p k) = Xa m c (ix2 r k) := by
  obtain ⟨e00, e01, -⟩ := idx_facts t
  unfold iblk
  rw [View.read_apply]
  show Xa m c _ = _
  refine congrArg (Xa m c) (funext fun a => Fin.ext ?_)
  match a with
  | ⟨0, _⟩ => show win0_0.index t (0 : Fin 2) * 512 + 1 * p.val = r.val; omega
  | ⟨1, _⟩ => show win0_0.index t (1 : Fin 2) * 2048 + 1 * k.val = k.val; omega

/-- Row q, column k of the weight block at point t is row J * 512 + q of the weights. -/
theorem wblk_apply (c : Dev nD) (t : Fin cfg0.N) (q : Fin 512) (k : Fin 2048) (o : Fin 2048)
    (ho : o.val = win0_5.index t (1 : Fin 2) * 512 + 1 * q.val) :
    (iblk m c 1 t : Vec Ideal S512x2048 .i32) (ix2 q k) = Wa m c (ix2 o k) := by
  obtain ⟨-, -, e10, e11, -⟩ := idx_facts t
  unfold iblk
  rw [View.read_apply]
  show Wa m c _ = _
  refine congrArg (Wa m c) (funext fun a => Fin.ext ?_)
  match a with
  | ⟨0, _⟩ => show win0_1.index t (0 : Fin 2) * 512 + 1 * q.val = o.val; omega
  | ⟨1, _⟩ => show win0_1.index t (1 : Fin 2) * 2048 + 1 * k.val = k.val; omega

/-- Entry q of the weight-scale block at point t is entry J * 512 + q of the scale row. -/
theorem sblk_apply (c : Dev nD) (t : Fin cfg0.N) (q : Fin 512) (o : Fin 2048)
    (ho : o.val = win0_5.index t (1 : Fin 2) * 512 + 1 * q.val) :
    (iblk m c 2 t : Vec Ideal S1x512 .f32) (ix2 (0 : Fin 1) q) = Sa m c (ix2 (0 : Fin 1) o) := by
  obtain ⟨-, -, -, -, e20, e21, -⟩ := idx_facts t
  unfold iblk
  rw [View.read_apply]
  show Sa m c _ = _
  refine congrArg (Sa m c) (funext fun a => Fin.ext ?_)
  match a with
  | ⟨0, _⟩ => show win0_2.index t (0 : Fin 2) * 1 + 1 * 0 = 0; omega
  | ⟨1, _⟩ => show win0_2.index t (1 : Fin 2) * 512 + 1 * q.val = o.val; omega

/-- Entry q of the bias block at point t is entry J * 512 + q of the bias row. -/
theorem bblk_apply (c : Dev nD) (t : Fin cfg0.N) (q : Fin 512) (o : Fin 2048)
    (ho : o.val = win0_5.index t (1 : Fin 2) * 512 + 1 * q.val) :
    (iblk m c 3 t : Vec Ideal S1x512 .f32) (ix2 (0 : Fin 1) q) = Ba m c (ix2 (0 : Fin 1) o) := by
  obtain ⟨-, -, -, -, -, -, e30, e31, -⟩ := idx_facts t
  unfold iblk
  rw [View.read_apply]
  show Ba m c _ = _
  refine congrArg (Ba m c) (funext fun a => Fin.ext ?_)
  match a with
  | ⟨0, _⟩ => show win0_3.index t (0 : Fin 2) * 1 + 1 * 0 = 0; omega
  | ⟨1, _⟩ => show win0_3.index t (1 : Fin 2) * 512 + 1 * q.val = o.val; omega

/-- The activation-scale block is the one-element scale array at every point. -/
theorem ablk_apply (c : Dev nD) (t : Fin cfg0.N) :
    (iblk m c 4 t : Vec Ideal S1 .f32) (ix1 (0 : Fin 1)) = Aa m c (ix1 (0 : Fin 1)) := by
  obtain ⟨-, -, -, -, -, -, -, -, e40, -⟩ := idx_facts t
  unfold iblk
  rw [View.read_apply]
  show Aa m c _ = _
  refine congrArg (Aa m c) (funext fun a => Fin.ext ?_)
  match a with
  | ⟨0, _⟩ => show win0_4.index t (0 : Fin 1) * 1 + 1 * 0 = 0; omega

/-- Element (p, q) of what point t computes is entry (I * 512 + p, J * 512 + q) of the whole-array function: the body's
    value at an element, with every block entry read where its block sits in its array. -/
theorem computed_at (c : Dev nD) (t : Fin cfg0.N) (p q : Fin 512) (r : Fin 8192) (o : Fin 2048)
    (hr : r.val = win0_5.index t (0 : Fin 2) * 512 + 1 * p.val) (ho : o.val = win0_5.index t (1 : Fin 2) * 512 + 1 * q.val) :
    k0_pay1 (F := Ideal) (iblk m c 4 t) (iblk m c 0 t) (iblk m c 1 t) (iblk m c 2 t) (iblk m c 3 t) (ix2 p q)
      = elem2 (Xa m c) (Wa m c) (Sa m c) (Ba m c) (Aa m c) r o := by
  refine (pay_apply (iblk m c 4 t) (iblk m c 0 t) (iblk m c 1 t) (iblk m c 2 t) (iblk m c 3 t) p q).trans ?_
  unfold elem2
  rw [ablk_apply m c t, sblk_apply m c t q o ho, bblk_apply m c t q o ho]
  refine congrArg (fun z => z * (Sa m c (ix2 (0 : Fin 1) o) * Aa m c (ix1 (0 : Fin 1))) + Ba m c (ix2 (0 : Fin 1) o))
    (Finset.sum_congr rfl fun k _ => ?_)
  rw [xblk_apply m c t p k r hr, wblk_apply m c t q k o ho]

/-- The same at an index of the block, whatever its two coordinates are. -/
theorem computed_at_idx (c : Dev nD) (t : Fin cfg0.N) (j : S512x512.Idx) (r : Fin 8192) (o : Fin 2048)
    (hr : r.val = win0_5.index t (0 : Fin 2) * 512 + 1 * (j 0).val) (ho : o.val = win0_5.index t (1 : Fin 2) * 512 + 1 * (j 1).val) :
    k0_pay1 (F := Ideal) (iblk m c 4 t) (iblk m c 0 t) (iblk m c 1 t) (iblk m c 2 t) (iblk m c 3 t) j
      = elem2 (Xa m c) (Wa m c) (Sa m c) (Ba m c) (Aa m c) r o := by
  obtain ⟨p, q, rfl⟩ : ∃ (p q : Fin 512), j = ix2 p q := ⟨j 0, j 1, eq_ix2 j⟩
  exact computed_at m c t p q r o hr ho

/-- WHAT POINT t WRITES BACK is block t of the whole-array function of the arrays the region finds. -/
theorem flushed_eq (c : Dev nD) (t : Fin cfg0.N) :
    (dats m 0 c).flushed 5 t = ((cfg0.win 5).blk t).view.read (Elt Ideal)
      (G2 (V m c main_v0) (V m c main_arg1) (V m c main_v1) (V m c main_v2) (V m c main_arg4)) := by
  show (cfg0.win 5).cut (grid0.coords t) ((dats m 0 c).after 5 t) = _
  rw [after0_5]
  unfold out0_5
  rw [View.canon_unit_zero hz]
  simp only [View.ld_unit_zero (S := S512x2048) hz, View.ld_unit_zero (S := S1x512) hz, View.ld_unit_zero (S := S1) hz1]
  funext j
  rw [View.read_apply]
  exact computed_at_idx m c t j ⟨_, _⟩ ⟨_, _⟩ rfl rfl

/-- An index of the array is in point t's block iff each coordinate is in the block's range on its axis. -/
theorem mem_blk (t : Fin cfg0.N) (i : S8192x2048.Idx) :
    i ∈ ((cfg0.win 5).blk t).view.set ↔ ∀ a : Fin 2, win0_5.index t a * S512x512.size a ≤ (i a).val
      ∧ (i a).val < win0_5.index t a * S512x512.size a + S512x512.size a := by
  show i ∈ ((View.whole main_v3).slice (win0_5.rect t)).set ↔ _
  rw [View.set_slice_whole, Rect.mem_set_unit]
  exact Iff.rfl

/-- The 64 blocks tile the array: entry (r, o) lies in the block of the point whose output block is
    (r / 512, o / 512). -/
theorem cover (i : S8192x2048.Idx) :
    ∃ t : Fin cfg0.N, (cfg0.win 5).flush t = true ∧ i ∈ ((cfg0.win 5).blk t).view.set := by
  have hi0 : (i 0).val < 8192 := (i 0).isLt
  have hi1 : (i 1).val < 2048 := (i 1).isLt
  obtain ⟨t, ht⟩ := idx_onto ⟨(i 0).val / 512, by omega⟩ ⟨(i 1).val / 512, by omega⟩
  have q0 : win0_5.index t (0 : Fin 2) = (i 0).val / 512 := congrFun ht 0
  have q1 : win0_5.index t (1 : Fin 2) = (i 1).val / 512 := congrFun ht 1
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

/-- The result array after the run is that function of the arrays the region finds. -/
theorem final5 (c : Dev nD) :
    (dats m 0 c).arrAt 5 cfg0.N
      = G2 (V m c main_v0) (V m c main_arg1) (V m c main_v1) (V m c main_v2) (V m c main_arg4) :=
  (dats m 0 c).arrAt_eq_of_cover 5 _ (fun t _ => flushed_eq m c t) (fun i => cover i)

end Cert.W8A8.KernelBlocks

end
-- ==== Proof.KernelRun.lean ====
/- The kernel program's run: the reshapes around the call, and the result buffer as the specification's array. -/
import proofs.«105305_j15753940041870_1_alg».proof.Proof.KernelBlocks
import Idealize.ShloMosaic.Lib.StableHlo.Run
import Idealize.ShloMosaic.Lib.ValueLayout

set_option maxRecDepth 16384

noncomputable section

open scoped BigOperators

namespace Cert.W8A8.KernelRun

open Idealize.ShloMosaic Idealize.ShloMosaic.TcCoe Idealize.ShloMosaic.ValueIdx Idealize.SL.Sem Idealize.ShloMosaic.StableHlo
open Cert.KernelIdeal Cert.KernelIdeal.Gen Cert.W8A8 Cert.W8A8.KernelBlocks

variable (m : (ℓ : Loc nD τ sig) → Buf (Elt Ideal) ℓ) (ρ : Dev nD → PrngReg)

/-- The launch contents of the five arguments, each at its literal type. -/
abbrev A0 (c : Dev nD) : Sx.Idx → EReal := m ((c.tc : Thread nD τ).loc main_arg0)
abbrev A1 (c : Dev nD) : Sw.Idx → BitVec 32 := m ((c.tc : Thread nD τ).loc main_arg1)
abbrev A2 (c : Dev nD) : Sv.Idx → EReal := m ((c.tc : Thread nD τ).loc main_arg2)
abbrev A3 (c : Dev nD) : Sv.Idx → EReal := m ((c.tc : Thread nD τ).loc main_arg3)
abbrev A4 (c : Dev nD) : Ss.Idx → EReal := m ((c.tc : Thread nD τ).loc main_arg4)

/-- The flattened activations the call reads are the [4, 2048, 2048] argument reshaped to [8192, 2048]. -/
theorem Xa_eq (c : Dev nD) : Xa m c = shapeCast S8192x2048 (A0 m c) shapeCasts_S4x2048x2048_S8192x2048 := by
  show StableHlo.after hostOps0 (fun b => m (c, b)) (Proc.devRef .tc main_v0) = _
  after_results
  rfl

/-- The weight-scale row the call reads is the [2048] argument reshaped to [1, 2048]. -/
theorem Sa_eq (c : Dev nD) : Sa m c = shapeCast S1x2048 (A2 m c) shapeCasts_S2048_S1x2048 := by
  show StableHlo.after hostOps0 (fun b => m (c, b)) (Proc.devRef .tc main_v1) = _
  after_results
  rfl

/-- The bias row the call reads is the [2048] argument reshaped to [1, 2048]. -/
theorem Ba_eq (c : Dev nD) : Ba m c = shapeCast S1x2048 (A3 m c) shapeCasts_S2048_S1x2048 := by
  show StableHlo.after hostOps0 (fun b => m (c, b)) (Proc.devRef .tc main_v2) = _
  after_results
  rfl

/-- Row a * 2048 + b of the flattened activations is row (a, b) of the argument (row-major order on both sides). -/
theorem Xa_apply (c : Dev nD) (a : Fin 4) (b k : Fin 2048) (r : Fin 8192) (hr : r.val = a.val * 2048 + b.val) :
    Xa m c (ix2 r k) = A0 m c (ix3 a b k) := by
  rw [Xa_eq]
  refine shapeCast_apply (A0 m c) shapeCasts_S4x2048x2048_S8192x2048 (ix2 r k) (ix3 a b k) ?_
  rw [Shape.rowMajor_val_two, Shape.rowMajor_val_three]
  show (a.val * 2048 + b.val) * 2048 + k.val = r.val * 2048 + k.val
  rw [hr]

/-- Entry (0, o) of the weight-scale row is entry o of the argument. -/
theorem Sa_apply (c : Dev nD) (o : Fin 2048) : Sa m c (ix2 (0 : Fin 1) o) = A2 m c (ix1 o) := by
  rw [Sa_eq]
  exact shapeCast_a_1a_apply (A2 m c) shapeCasts_S2048_S1x2048 (0 : Fin 1) o

/-- Entry (0, o) of the bias row is entry o of the argument. -/
theorem Ba_apply (c : Dev nD) (o : Fin 2048) : Ba m c (ix2 (0 : Fin 1) o) = A3 m c (ix1 o) := by
  rw [Ba_eq]
  exact shapeCast_a_1a_apply (A3 m c) shapeCasts_S2048_S1x2048 (0 : Fin 1) o

/-- Entry (a * 2048 + b, o) over the call's operand arrays is the specification's element (a, b, o) over the
    arguments: the two integer/scale arrays are the arguments themselves, the other three their reshapes. -/
theorem elem2_eq (c : Dev nD) (a : Fin 4) (b o : Fin 2048) (r : Fin 8192) (hr : r.val = a.val * 2048 + b.val) :
    elem2 (Xa m c) (Wa m c) (Sa m c) (Ba m c) (Aa m c) r o = elemK (A0 m c) (A1 m c) (A2 m c) (A3 m c) (A4 m c) a b o := by
  have eW : Wa m c = A1 m c := V_main_arg1 m c
  have eA : Aa m c = A4 m c := V_main_arg4 m c
  unfold elem2 elemK
  rw [eW, eA, Sa_apply, Ba_apply]
  refine congrArg (fun z => z * (A2 m c (ix1 o) * A4 m c (ix1 (0 : Fin 1))) + A3 m c (ix1 o))
    (Finset.sum_congr rfl fun k _ => ?_)
  rw [Xa_apply m c a b k r hr]

/-- The result buffer after the lines that follow the call: the call's result array reshaped to [4, 2048, 2048]. -/
theorem tail_v4 (c : Dev nD) :
    Pipeline.afterTail₀ cfgs (dats m) 0 (V0 m) [hostOps1] c main_v4
      = shapeCast S4x2048x2048 ((dats m 0 c).arrAt 5 cfg0.N) shapeCasts_S8192x2048_S4x2048x2048 := by
  have e : Pipeline.withArrays (cfgs 0).spec c (V0 m c) (fun w => (dats m 0 c).arrAt w (cfgs 0).N) (Proc.devRef .tc main_v3)
      = (dats m 0 c).arrAt 5 cfg0.N := Pipeline.withArrays_arr spec0 launch0.win.arr_inj c _ _ 5
  unfold Pipeline.afterTail₀
  show StableHlo.after hostOps1 _ (Proc.devRef .tc main_v4) = _
  after_results
  rw [e]
  rfl

/-- The reshaped result array is the specification's array of the arguments, element by element. -/
theorem result_eq (c : Dev nD) :
    shapeCast S4x2048x2048 (G2 (V m c main_v0) (V m c main_arg1) (V m c main_v1) (V m c main_v2) (V m c main_arg4))
        shapeCasts_S8192x2048_S4x2048x2048
      = out (A0 m c) (A1 m c) (A2 m c) (A3 m c) (A4 m c) := by
  funext i
  obtain ⟨a, b, o, rfl⟩ : ∃ (a : Fin 4) (b o : Fin 2048), i = ix3 a b o := ⟨i 0, i 1, i 2, eq_ix3 i⟩
  have hlt : a.val * 2048 + b.val < 8192 := by have := a.isLt; have := b.isLt; omega
  refine (shapeCast_apply _ shapeCasts_S8192x2048_S4x2048x2048 (ix3 a b o)
    (ix2 (⟨a.val * 2048 + b.val, hlt⟩ : Fin 8192) o) (by
      rw [Shape.rowMajor_val_two, Shape.rowMajor_val_three]; rfl)).trans ?_
  exact elem2_eq m c a b o ⟨a.val * 2048 + b.val, hlt⟩ rfl

/-- Every weakly fair execution of the kernel program ends with the result buffer at the specification's array of
    the launch contents of the arguments, and the arguments unchanged. -/
theorem run : θ_run defs (onTc (τ := τ) (main (F := Ideal))) ⟨m, fun _ => 0, ρ⟩ (fun r => ∀ c : Dev nD,
      r.2.mem ((c.tc : Thread nD τ).loc main_v4)
        = out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans
        ((tail_v4 m c).trans ((congrArg (fun z => shapeCast S4x2048x2048 z shapeCasts_S8192x2048_S4x2048x2048)
          (final5 m c)).trans (result_eq m c))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Cert.W8A8.KernelRun

end
-- ==== Proof.RefValue.lean ====
/- The reference's result, read one element at a time. -/
import proofs.«105305_j15753940041870_1_alg».proof.Proof.Gen.ReferenceIdeal.Run
import proofs.«105305_j15753940041870_1_alg».proof.Proof.Gen.ReferenceIdeal.Read
import proofs.«105305_j15753940041870_1_alg».proof.Proof.Spec

noncomputable section

open scoped BigOperators

namespace Cert.W8A8.RefValue

open Idealize.ShloMosaic Idealize.ShloMosaic.ValueIdx Cert.ReferenceIdeal Cert.ReferenceIdeal.Read Cert.W8A8

/-- The left factor of the contraction at (i, k): the level of activation (i0, i1, k), dequantised by the activation
    scale. The scale is read through two broadcasts of the one-element array; the clamp bounds through a broadcast of a
    scalar. -/
theorem lhs_term (x0 : (⟨S4x2048x2048, .f32⟩ : BufTy).Contents (Elt Ideal)) (x4 : (⟨S1, .f32⟩ : BufTy).Contents (Elt Ideal))
    (i : S4x2048x2048.Idx) (k : Fin 2048) :
    val_main_v7 (F := Ideal) x0 x4 (lidx_main_v12 i k)
      = quant (x0 (ix3 (⟨(i 0).val, (i 0).isLt⟩ : Fin 4) (⟨(i 1).val, (i 1).isLt⟩ : Fin 2048) k)) (x4 (ix1 (0 : Fin 1)))
          * x4 (ix1 (0 : Fin 1)) := by
  have e1 : lidx_main_v12 i k = ix3 (⟨(i 0).val, (i 0).isLt⟩ : Fin 4) (⟨(i 1).val, (i 1).isLt⟩ : Fin 2048) k :=
    funext fun a => by match a with | ⟨0, _⟩ => rfl | ⟨1, _⟩ => rfl | ⟨2, _⟩ => rfl
  have e2 : ∀ j : S4x2048x2048.Idx, idx_main_v0 (idx_main_v1 j) = ix1 (0 : Fin 1) :=
    fun j => funext fun a => by match a with | ⟨0, _⟩ => rfl
  have e3 : ∀ j : S4x2048x2048.Idx, idx_main_v5 (idx_main_v6 j) = ix1 (0 : Fin 1) :=
    fun j => funext fun a => by match a with | ⟨0, _⟩ => rfl
  rw [val_main_v7_apply, val_main_v4_apply, val_main_call1_v4_apply, val_main_call1_v3_apply, val_main_cst_0_apply,
    val_main_call1_v2_apply, val_main_call1_v1_apply, val_main_call1_v0_apply, val_main_cst_apply, val_main_v3_apply,
    val_main_v2_apply, val_main_v1_apply, val_main_v0_apply, val_main_v6_apply, val_main_v5_apply, e2, e3, e1]
  rfl

/-- The right factor at (i, k): weight (i2, k) read signed, dequantised by channel i2's scale (a column broadcast). -/
theorem rhs_term (x1 : (⟨S2048x2048, .i32⟩ : BufTy).Contents (Elt Ideal)) (x2 : (⟨S2048, .f32⟩ : BufTy).Contents (Elt Ideal))
    (i : S4x2048x2048.Idx) (k : Fin 2048) :
    val_main_v11 (F := Ideal) x1 x2 (ridx_main_v12 i k)
      = wint (x1 (ix2 (⟨(i 2).val, (i 2).isLt⟩ : Fin 2048) k)) * x2 (ix1 (⟨(i 2).val, (i 2).isLt⟩ : Fin 2048)) := by
  have e1 : ridx_main_v12 i k = ix2 (⟨(i 2).val, (i 2).isLt⟩ : Fin 2048) k :=
    funext fun a => by match a with | ⟨0, _⟩ => rfl | ⟨1, _⟩ => rfl
  have e2 : idx_main_v9 (idx_main_v10 (ridx_main_v12 i k)) = ix1 (⟨(i 2).val, (i 2).isLt⟩ : Fin 2048) :=
    funext fun a => by match a with | ⟨0, _⟩ => rfl
  rw [val_main_v11_apply, val_main_v8_apply, val_main_v10_apply, val_main_v9_apply, e2, e1]
  rfl

/-- Element i of the reference's result: every level dequantised by the activation scale, every weight by its
    channel's scale, their product summed over the contracted axis, plus the channel's bias. -/
theorem ref_apply (x0 : (⟨S4x2048x2048, .f32⟩ : BufTy).Contents (Elt Ideal)) (x1 : (⟨S2048x2048, .i32⟩ : BufTy).Contents (Elt Ideal))
    (x2 x3 : (⟨S2048, .f32⟩ : BufTy).Contents (Elt Ideal)) (x4 : (⟨S1, .f32⟩ : BufTy).Contents (Elt Ideal)) (i : S4x2048x2048.Idx) :
    val_main_v15 (F := Ideal) x0 x1 x2 x3 x4 i
      = elemR x0 x1 x2 x3 x4 ⟨(i 0).val, (i 0).isLt⟩ ⟨(i 1).val, (i 1).isLt⟩ ⟨(i 2).val, (i 2).isLt⟩ := by
  have eb : idx_main_v13 (idx_main_v14 i) = ix1 (⟨(i 2).val, (i 2).isLt⟩ : Fin 2048) :=
    funext fun a => by match a with | ⟨0, _⟩ => rfl
  rw [val_main_v15_apply, val_main_v12_apply, val_main_v14_apply, val_main_v13_apply, eb]
  unfold elemR
  show (∑ k : Fin 2048, _) + _ = (∑ k : Fin 2048, _) + _
  exact congrArg (· + x3 (ix1 (⟨(i 2).val, (i 2).isLt⟩ : Fin 2048)))
    (Finset.sum_congr rfl fun k _ => by rw [lhs_term, rhs_term])

end Cert.W8A8.RefValue

end
-- ==== Proof.Finite.lean ====
/- What the precondition gives: the two scales are finite. -/
import proofs.«105305_j15753940041870_1_alg».proof.Pre_finite_inputs
import proofs.«105305_j15753940041870_1_alg».proof.Proof.Gen.Pre_finite_inputs
import Idealize.ShloMosaic.Lib.ReduceAll
import Idealize.ShloMosaic.Lib.ValueIdx
import Idealize.ShloMosaic.PureOps.Ideal

noncomputable section

namespace Cert.W8A8.Finite

open Idealize.ShloMosaic Idealize.ShloMosaic.ValueIdx Cert.Pre_finite_inputs

/-- A rank-0 array has one index. -/
instance : Subsingleton S_.Idx := ⟨fun a b => funext fun d => d.elim0⟩

/-- An extended real whose absolute value is below +infinity is a real number: both infinities have absolute
    value +infinity. -/
theorem real_of_abs_lt_inf (x : EReal)
    (h : Ideal.cmp .olt (max x (-x)) (Ideal.ofBits .f32 0x7F800000#32) = 1#1) : ∃ t : ℝ, x = (t : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- Under the precondition every weight scale and the activation scale is a real number: the precondition is the
    conjunction of four "all entries have finite absolute value" tests, of which the second is the weight scales'
    and the fourth the activation scale's. -/
theorem scales_finite (a0 : FVec Ideal S4x2048x2048 .f32) (a1 : IVec S2048x2048 32) (a2 a3 : FVec Ideal S2048 .f32)
    (a4 : FVec Ideal S1 .f32)
    (h : Cert.Pre_finite_inputs.fn (F := Ideal) a0 a1 a2 a3 a4 = fun _ => 1#1) :
    (∀ o : Fin 2048, ∃ t : ℝ, a2 (ix1 o) = (t : EReal)) ∧ (∃ t : ℝ, a4 (ix1 (0 : Fin 1)) = (t : EReal)) := by
  have h0 := congrFun h ix0
  dsimp only [fn, fn_part1] at h0
  obtain ⟨h123, h4⟩ := IntOp.andi_eq_one.1 h0
  obtain ⟨h12, -⟩ := IntOp.andi_eq_one.1 h123
  obtain ⟨-, h2⟩ := IntOp.andi_eq_one.1 h12
  exact ⟨fun o => real_of_abs_lt_inf _ (Host.reduce_andi_all _ _ _ _ _ h2 (ix1 o)),
    real_of_abs_lt_inf _ (Host.reduce_andi_all _ _ _ _ _ h4 (ix1 (0 : Fin 1)))⟩

end Cert.W8A8.Finite

end
-- ==== Proof.lean ====
/- The kernel quantises a block of activations to integer levels, multiplies them into a block of integer weights
   on the matrix unit, and rescales the product once per output channel; the reference dequantises both operands
   first and multiplies the real numbers. Both idealised programs end with the same array: element by element the
   two arrangements differ by moving the (finite) scales across a finite sum of finite terms, each quantised level
   being finite by its clamp. The frames of the two kernel programs are the generated ones; the reference's frame is
   its generated run with the result dropped; the idealisation rewrote nothing, so its claim is trivial. -/
import proofs.«105305_j15753940041870_1_alg».proof.Defs
import proofs.«105305_j15753940041870_1_alg».proof.Proof.Gen.Kernel
import proofs.«105305_j15753940041870_1_alg».proof.Proof.Gen.Kernel.Skeleton
import proofs.«105305_j15753940041870_1_alg».proof.Proof.Gen.Kernel.Launch
import proofs.«105305_j15753940041870_1_alg».proof.Proof.Gen.Kernel.Points
import proofs.«105305_j15753940041870_1_alg».proof.Proof.Gen.Kernel.Frame
import proofs.«105305_j15753940041870_1_alg».proof.Proof.Gen.KernelIdeal
import proofs.«105305_j15753940041870_1_alg».proof.Proof.Gen.KernelIdeal.Skeleton
import proofs.«105305_j15753940041870_1_alg».proof.Proof.Gen.KernelIdeal.Launch
import proofs.«105305_j15753940041870_1_alg».proof.Proof.Gen.KernelIdeal.Points
import proofs.«105305_j15753940041870_1_alg».proof.Proof.Gen.KernelIdeal.Frame
import proofs.«105305_j15753940041870_1_alg».proof.Proof.Gen.ReferenceIdeal
import proofs.«105305_j15753940041870_1_alg».proof.Proof.Gen.ReferenceIdeal.Run
import proofs.«105305_j15753940041870_1_alg».proof.Proof.Gen.ReferenceIdeal.Read
import proofs.«105305_j15753940041870_1_alg».proof.Proof.Gen.Pre_finite_inputs
import proofs.«105305_j15753940041870_1_alg».proof.Proof.Spec
import proofs.«105305_j15753940041870_1_alg».proof.Proof.KernelRun
import proofs.«105305_j15753940041870_1_alg».proof.Proof.RefValue
import proofs.«105305_j15753940041870_1_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealised programs end at the specification's array of the arguments: the kernel by its run, the reference
    because each of its elements is the other arrangement of the same sum, equal under finite scales. -/
theorem algebraic : Cert.algebraic_KernelIdeal_ReferenceIdeal := by
  intro m ρ m' ρ' hpre hagree
  refine ⟨_, Cert.W8A8.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨hws, hxs⟩ := Cert.W8A8.Finite.scales_finite _ _ _ _ _ (hpre c)
  rw [Cert.ReferenceIdeal.Read.val_main_v15_eq, (hagree c).1, (hagree c).2.1, (hagree c).2.2.1, (hagree c).2.2.2.1,
    (hagree c).2.2.2.2]
  funext i
  rw [Cert.W8A8.RefValue.ref_apply]
  exact Cert.W8A8.elemR_eq_elemK _ _ _ _ _ _ _ _ (hws _) hxs

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
